-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x512 : Shape := ⟨2, ![128, 512]⟩
abbrev S1x512 : Shape := ⟨2, ![1, 512]⟩
abbrev S512x384 : Shape := ⟨2, ![512, 384]⟩
abbrev S1x384 : Shape := ⟨2, ![1, 384]⟩
abbrev S384x128 : Shape := ⟨2, ![384, 128]⟩
abbrev S1x128 : Shape := ⟨2, ![1, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S512x384 : S_.BroadcastsInDim S512x384 (![] : Fin 0 → Fin S512x384.rank)
  reducesTo_S512x384_S_d0_1 : S512x384.ReducesTo [0, 1] S_
  bcast_S_S1x384 : S_.BroadcastsInDim S1x384 (![] : Fin 0 → Fin S1x384.rank)
  reducesTo_S1x384_S_d0_1 : S1x384.ReducesTo [0, 1] S_
  bcast_S_S384x128 : S_.BroadcastsInDim S384x128 (![] : Fin 0 → Fin S384x128.rank)
  reducesTo_S384x128_S_d0_1 : S384x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x384 .f32) (main_arg5 : FVec F S384x128 .f32) (main_arg6 : FVec F S1x128 .f32) (main_v13 : IVec S_ 1) (main_v16 : IVec S512x384 1) : IVec S_ 1 :=
  let main_c_5 : IVec S_ 1 := constantI S_ 1 1#1
  let main_v17 : IVec S_ 1 := (fun x v => Host.reduce IntOp.andi x v reducesTo_S512x384_S_d0_1 h_S_) main_v16 main_c_5
  let main_v18 : IVec S_ 1 := andi main_v13 main_v17
  let main_v19 : FVec F S1x384 .f32 := Host.absf main_arg4
  let main_cst_6 : FVec F S_ .f32 := constant S_ .f32 0x7F800000#32
  let main_v20 : FVec F S1x384 .f32 := broadcastInDim S1x384 ![] bcast_S_S1x384 main_cst_6
  let main_v21 : IVec S1x384 1 := cmpf .olt main_v19 main_v20
  let main_c_7 : IVec S_ 1 := constantI S_ 1 1#1
  let main_v22 : IVec S_ 1 := (fun x v => Host.reduce IntOp.andi x v reducesTo_S1x384_S_d0_1 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S65536x128 .f32) (main_arg1 : FVec F S128x512 .f32) (main_arg2 : FVec F S1x512 .f32) (main_arg3 : FVec F S512x384 .f32) (main_arg4 : FVec F S1x384 .f32) (main_arg5 : FVec F S384x128 .f32) (main_arg6 : FVec F S1x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x384 .f32 := Host.absf main_arg3
  let main_cst_4 : FVec F S_ .f32 := constant S_ .f32 0x7F800000#32
  let main_v15 : FVec F S512x384 .f32 := broadcastInDim S512x384 ![] bcast_S_S512x384 main_cst_4
  let main_v16 : IVec S512x384 1 := cmpf .olt main_v14 main_v15
  fn_part1 (F := F) main_arg4 main_arg5 main_arg6 main_v13 main_v16
-- ==== Kernel.lean ====
abbrev S65536x128 : Shape := ⟨2, ![65536, 128]⟩
abbrev S128x512 : Shape := ⟨2, ![128, 512]⟩
abbrev S1x512 : Shape := ⟨2, ![1, 512]⟩
abbrev S512x384 : Shape := ⟨2, ![512, 384]⟩
abbrev S1x384 : Shape := ⟨2, ![1, 384]⟩
abbrev S384x128 : Shape := ⟨2, ![384, 128]⟩
abbrev S1x128 : Shape := ⟨2, ![1, 128]⟩
abbrev S2048x128 : Shape := ⟨2, ![2048, 128]⟩
abbrev S2048x512 : Shape := ⟨2, ![2048, 512]⟩
abbrev S2048x384 : Shape := ⟨2, ![2048, 384]⟩
abbrev S65536x24 : Shape := ⟨2, ![65536, 24]⟩

abbrev nBuf : Space → Nat
  | .hbm => 12
  | .vmem => 10
  | .smem => 0
  | _ => 0

abbrev bufTy : (tb : Table) → Fin (tcTables nBuf tb) → BufTy
  | .hbm, ⟨0, _⟩ => ⟨S65536x128, .f32⟩
  | .hbm, ⟨1, _⟩ => ⟨S128x512, .f32⟩
  | .hbm, ⟨2, _⟩ => ⟨S1x512, .f32⟩
  | .hbm, ⟨3, _⟩ => ⟨S512x384, .f32⟩
  | .hbm, ⟨4, _⟩ => ⟨S1x384, .f32⟩
  | .hbm, ⟨5, _⟩ => ⟨S384x128, .f32⟩
  | .hbm, ⟨6, _⟩ => ⟨S1x128, .f32⟩
  | .hbm, ⟨7, _⟩ => ⟨S128x512, .bf16⟩
  | .hbm, ⟨8, _⟩ => ⟨S512x384, .bf16⟩
  | .hbm, ⟨9, _⟩ => ⟨S384x128, .bf16⟩
  | .hbm, ⟨10, _⟩ => ⟨S65536x128, .f32⟩
  | .hbm, ⟨11, _⟩ => ⟨S65536x24, .f32⟩
  | .local _ .vmem, ⟨0, _⟩ => ⟨S2048x128, .f32⟩
  | .local _ .vmem, ⟨1, _⟩ => ⟨S2048x128, .f32⟩
  | .local _ .vmem, ⟨2, _⟩ => ⟨S128x512, .bf16⟩
  | .local _ .vmem, ⟨3, _⟩ => ⟨S1x512, .f32⟩
  | .local _ .vmem, ⟨4, _⟩ => ⟨S512x384, .bf16⟩
  | .local _ .vmem, ⟨5, _⟩ => ⟨S1x384, .f32⟩
  | .local _ .vmem, ⟨6, _⟩ => ⟨S384x128, .bf16⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  broadcasts_S1x512_S2048x512 : S1x512.Broadcasts S2048x512
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S1x384_S1x384_0_0 : ∀ a, (![0, 0] : Fin 2 → Nat) a + S1x384.size a ≤ S1x384.size a
  h_S1x384 : 0 < S1x384.numel
  broadcasts_S1x384_S2048x384 : S1x384.Broadcasts S2048x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  broadcasts_S1x128_S2048x128 : S1x128.Broadcasts S2048x128
  slices_S65536x128_S65536x24_0_0 : S65536x128.Slices ![0, 0] S65536x24
  dot_S2048x128_S128x512_S2048x512_1_0_0_1_n_n_wf : DotDims.WF S2048x128 S128x512 S2048x512 [1] [0] [0] [1] [] []
  dot_S2048x512_S512x384_S2048x384_1_0_0_1_n_n_wf : DotDims.WF S2048x512 S512x384 S2048x384 [1] [0] [0] [1] [] []
  dot_S2048x384_S384x128_S2048x128_1_0_0_1_n_n_wf : DotDims.WF S2048x384 S384x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S512x384.size a
  hwx0_3 : ∀ i : grid0.Coords, EltTy.bits .bf16 = 32 ∨ (Rect.block (s := S512x384) S512x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .bf16 = 32 ∨ (Rect.block (s := S384x128) S384x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S65536x128.size a
  hwx0_7 : ∀ i : grid0.Coords, EltTy.bits .f32 = 32 ∨ (Rect.block (s := S65536x128) S2048x128.size (cc0_transform_7 i) (hinb0_7 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x384_S2048x384_1_0_0_1_n_n : DotDims S2048x512 S512x384 S2048x384 where
  lhsContracting := [1]
  rhsContracting := [0]
  lhsNonContracting := [0]
  rhsNonContracting := [1]
  lhsBatch := []
  rhsBatch := []
  wf := dot_S2048x512_S512x384_S2048x384_1_0_0_1_n_n_wf
def dot_S2048x384_S384x128_S2048x128_1_0_0_1_n_n : DotDims S2048x384 S384x128 S2048x128 where
  lhsContracting := [1]
  rhsContracting := [0]
  lhsNonContracting := [0]
  rhsNonContracting := [1]
  lhsBatch := []
  rhsBatch := []
  wf := dot_S2048x384_S384x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x128 : Shape := ⟨2, ![65536, 128]⟩
abbrev S128x512 : Shape := ⟨2, ![128, 512]⟩
abbrev S1x512 : Shape := ⟨2, ![1, 512]⟩
abbrev S512x384 : Shape := ⟨2, ![512, 384]⟩
abbrev S1x384 : Shape := ⟨2, ![1, 384]⟩
abbrev S384x128 : Shape := ⟨2, ![384, 128]⟩
abbrev S1x128 : Shape := ⟨2, ![1, 128]⟩
abbrev S_ : Shape := ⟨0, ![]⟩
abbrev S65536x24 : Shape := ⟨2, ![65536, 24]⟩
abbrev S256x128 : Shape := ⟨2, ![256, 128]⟩
abbrev S256x512 : Shape := ⟨2, ![256, 512]⟩
abbrev S256x384 : Shape := ⟨2, ![256, 384]⟩

abbrev nBuf : Space → Nat
  | .hbm => 12
  | .vmem => 10
  | .smem => 0
  | _ => 0

abbrev bufTy : (tb : Table) → Fin (tcTables nBuf tb) → BufTy
  | .hbm, ⟨0, _⟩ => ⟨S65536x128, .f32⟩
  | .hbm, ⟨1, _⟩ => ⟨S128x512, .f32⟩
  | .hbm, ⟨2, _⟩ => ⟨S1x512, .f32⟩
  | .hbm, ⟨3, _⟩ => ⟨S512x384, .f32⟩
  | .hbm, ⟨4, _⟩ => ⟨S1x384, .f32⟩
  | .hbm, ⟨5, _⟩ => ⟨S384x128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S65536x128, .f32⟩
  | .hbm, ⟨10, _⟩ => ⟨S65536x128, .f32⟩
  | .hbm, ⟨11, _⟩ => ⟨S65536x24, .f32⟩
  | .local _ .vmem, ⟨0, _⟩ => ⟨S256x128, .f32⟩
  | .local _ .vmem, ⟨1, _⟩ => ⟨S256x128, .f32⟩
  | .local _ .vmem, ⟨2, _⟩ => ⟨S128x512, .f32⟩
  | .local _ .vmem, ⟨3, _⟩ => ⟨S1x512, .f32⟩
  | .local _ .vmem, ⟨4, _⟩ => ⟨S512x384, .f32⟩
  | .local _ .vmem, ⟨5, _⟩ => ⟨S1x384, .f32⟩
  | .local _ .vmem, ⟨6, _⟩ => ⟨S384x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S65536x128_S65536x128_000_000 : S65536x128.Pads (![0, 0] : Fin 2 → Nat) ![0, 0] ![0, 0] S65536x128
  h_S_ : 0 < S_.numel
  slices_S65536x128_S65536x24_0_0 : S65536x128.Slices ![0, 0] S65536x24
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  broadcasts_S1x512_S256x512 : S1x512.Broadcasts S256x512
  inb_S512x384_S512x384_0_0 : ∀ a, (![0, 0] : Fin 2 → Nat) a + S512x384.size a ≤ S512x384.size a
  h_S512x384 : 0 < S512x384.numel
  inb_S1x384_S1x384_0_0 : ∀ a, (![0, 0] : Fin 2 → Nat) a + S1x384.size a ≤ S1x384.size a
  h_S1x384 : 0 < S1x384.numel
  broadcasts_S1x384_S256x384 : S1x384.Broadcasts S256x384
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  dot_S256x128_S128x512_S256x512_1_0_0_1_n_n_wf : DotDims.WF S256x128 S128x512 S256x512 [1] [0] [0] [1] [] []
  dot_S256x512_S512x384_S256x384_1_0_0_1_n_n_wf : DotDims.WF S256x512 S512x384 S256x384 [1] [0] [0] [1] [] []
  dot_S256x384_S384x128_S256x128_1_0_0_1_n_n_wf : DotDims.WF S256x384 S384x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S65536x128.size a
  hwx0_0 : ∀ i : grid0.Coords, EltTy.bits .f32 = 32 ∨ (Rect.block (s := S65536x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S512x384.size a
  hwx0_3 : ∀ i : grid0.Coords, EltTy.bits .f32 = 32 ∨ (Rect.block (s := S512x384) S512x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S65536x128.size a
  hwx0_7 : ∀ i : grid0.Coords, EltTy.bits .f32 = 32 ∨ (Rect.block (s := S65536x128) S256x128.size (cc0_transform_7 i) (hinb0_7 i)).WholeWords (EltTy.packing .f32)

variable [Facts₀]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x384_S256x384_1_0_0_1_n_n : DotDims S256x512 S512x384 S256x384 where
  lhsContracting := [1]
  rhsContracting := [0]
  lhsNonContracting := [0]
  rhsNonContracting := [1]
  lhsBatch := []
  rhsBatch := []
  wf := dot_S256x512_S512x384_S256x384_1_0_0_1_n_n_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf

abbrev win0_0 : Pipeline.Window sig grid0 :=
  Pipeline.Window.ofSpec (Memref.whole main_call0_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Mlp.lean ====
/-
  A three-layer perceptron on arrays of extended reals, for any number of rows R:

      net x w1 b1 w2 b2 w3 b3 = tanh (relu (relu (x · w1 + b1) · w2 + b2) · w3 + b3),

  where x is R x 128, the weights are 128 x 512, 512 x 384 and 384 x 128, each bias is one row added to every row of
  the product, relu is the entrywise maximum with the value of the zero word, and every product is the plain sum over
  the inner index. Row r of the result is a function of row r of x and of the weights and biases alone (`net_row`):
  that is what lets an array be computed in blocks of rows of any height.
-/
import proofs.«131893_g2000001118044285_pallasbulk_215_2_alg».proof.Proof.LibPlainDot

noncomputable section

namespace Cert.Mlp

open Idealize.ShloMosaic Idealize.ShloMosaic.ValueIdx Cert.PlainDot

/-- The perceptron's value at every index of an R x 128 array. -/
def net {R : Nat} (x : (⟨2, ![R, 128]⟩ : Shape).Idx → EReal)
    (w1 : (⟨2, ![128, 512]⟩ : Shape).Idx → EReal) (b1 : (⟨2, ![1, 512]⟩ : Shape).Idx → EReal)
    (w2 : (⟨2, ![512, 384]⟩ : Shape).Idx → EReal) (b2 : (⟨2, ![1, 384]⟩ : Shape).Idx → EReal)
    (w3 : (⟨2, ![384, 128]⟩ : Shape).Idx → EReal) (b3 : (⟨2, ![1, 128]⟩ : Shape).Idx → EReal) :
    (⟨2, ![R, 128]⟩ : Shape).Idx → EReal :=
  fun j => Ideal.tanh (affine (affineRelu (affineRelu x w1 b1) w2 b2) w3 b3 j)

/-- A product plus a bias row, at row p of one left operand and row p' of another: equal when the two rows are. -/
theorem affine_row {M M' K N : Nat} (A : (⟨2, ![M, K]⟩ : Shape).Idx → EReal) (A' : (⟨2, ![M', K]⟩ : Shape).Idx → EReal)
    (B : (⟨2, ![K, N]⟩ : Shape).Idx → EReal) (b : (⟨2, ![1, N]⟩ : Shape).Idx → EReal) (p : Fin M) (p' : Fin M')
    (h : ∀ k : Fin K, A (ix2 p k) = A' (ix2 p' k)) (q : Fin N) :
    affine A B b (ix2 p q) = affine A' B b (ix2 p' q) := by
  show (∑ k : Fin K, A (ix2 p k) * B (ix2 k q)) + b (ix2 (0 : Fin 1) q)
      = (∑ k : Fin K, A' (ix2 p' k) * B (ix2 k q)) + b (ix2 (0 : Fin 1) q)
  exact congrArg (· + b (ix2 (0 : Fin 1) q)) (Finset.sum_congr rfl fun k _ => by rw [h k])

/-- The same for the rectified product. -/
theorem affineRelu_row {M M' K N : Nat} (A : (⟨2, ![M, K]⟩ : Shape).Idx → EReal) (A' : (⟨2, ![M', K]⟩ : Shape).Idx → EReal)
    (B : (⟨2, ![K, N]⟩ : Shape).Idx → EReal) (b : (⟨2, ![1, N]⟩ : Shape).Idx → EReal) (p : Fin M) (p' : Fin M')
    (h : ∀ k : Fin K, A (ix2 p k) = A' (ix2 p' k)) (q : Fin N) :
    affineRelu A B b (ix2 p q) = affineRelu A' B b (ix2 p' q) := by
  show max (affine A B b (ix2 p q)) _ = max (affine A' B b (ix2 p' q)) _
  rw [affine_row A A' B b p p' h q]

/-- ROW LOCALITY: row p of the perceptron of x is row p' of the perceptron of x' whenever row p of x is row p' of x'. -/
theorem net_row {R R' : Nat} (x : (⟨2, ![R, 128]⟩ : Shape).Idx → EReal) (x' : (⟨2, ![R', 128]⟩ : Shape).Idx → EReal)
    (w1 : (⟨2, ![128, 512]⟩ : Shape).Idx → EReal) (b1 : (⟨2, ![1, 512]⟩ : Shape).Idx → EReal)
    (w2 : (⟨2, ![512, 384]⟩ : Shape).Idx → EReal) (b2 : (⟨2, ![1, 384]⟩ : Shape).Idx → EReal)
    (w3 : (⟨2, ![384, 128]⟩ : Shape).Idx → EReal) (b3 : (⟨2, ![1, 128]⟩ : Shape).Idx → EReal)
    (p : Fin R) (p' : Fin R') (h : ∀ k : Fin 128, x (ix2 p k) = x' (ix2 p' k)) (q : Fin 128) :
    net x w1 b1 w2 b2 w3 b3 (ix2 p q) = net x' w1 b1 w2 b2 w3 b3 (ix2 p' q) := by
  show Ideal.tanh (affine (affineRelu (affineRelu x w1 b1) w2 b2) w3 b3 (ix2 p q))
      = Ideal.tanh (affine (affineRelu (affineRelu x' w1 b1) w2 b2) w3 b3 (ix2 p' q))
  exact congrArg Ideal.tanh (affine_row _ _ w3 b3 p p'
    (fun k2 => affineRelu_row _ _ w2 b2 p p' (fun k1 => affineRelu_row x x' w1 b1 p p' h k1) k2) q)

/-- The same at any two indices: at an index y of one array and an index i of another, in the same column, with row
    (y 0) of the first array equal to row (i 0) of the second, the two perceptrons agree. This is how a block of rows
    is read inside the whole array: y an index of the block, i the index it sits at. -/
theorem net_block {R R' : Nat} (x' : (⟨2, ![R', 128]⟩ : Shape).Idx → EReal) (x : (⟨2, ![R, 128]⟩ : Shape).Idx → EReal)
    (w1 : (⟨2, ![128, 512]⟩ : Shape).Idx → EReal) (b1 : (⟨2, ![1, 512]⟩ : Shape).Idx → EReal)
    (w2 : (⟨2, ![512, 384]⟩ : Shape).Idx → EReal) (b2 : (⟨2, ![1, 384]⟩ : Shape).Idx → EReal)
    (w3 : (⟨2, ![384, 128]⟩ : Shape).Idx → EReal) (b3 : (⟨2, ![1, 128]⟩ : Shape).Idx → EReal)
    (y : (⟨2, ![R', 128]⟩ : Shape).Idx) (i : (⟨2, ![R, 128]⟩ : Shape).Idx)
    (hcol : (i 1).val = (y 1).val) (hx : ∀ k : Fin 128, x' (ix2 (y 0) k) = x (ix2 (i 0) k)) :
    net x' w1 b1 w2 b2 w3 b3 y = net x w1 b1 w2 b2 w3 b3 i :=
  calc net x' w1 b1 w2 b2 w3 b3 y
      = net x' w1 b1 w2 b2 w3 b3 (ix2 (y 0) (y 1)) := congrArg _ (eq_ix2 y)
    _ = net x w1 b1 w2 b2 w3 b3 (ix2 (i 0) (y 1)) := net_row x' x w1 b1 w2 b2 w3 b3 (y 0) (i 0) hx (y 1)
    _ = net x w1 b1 w2 b2 w3 b3 (ix2 (i 0) (i 1)) := by rw [show i 1 = y 1 from Fin.ext hcol]
    _ = net x w1 b1 w2 b2 w3 b3 i := (congrArg _ (eq_ix2 i)).symm

end Cert.Mlp

end
-- ==== Proof.KernelPayload.lean ====
/-
  The kernel body's one stored value is the perceptron of its loaded blocks. At the extended reals a change of float
  format is the identity, so the body's narrowing of the input block, of each hidden layer and of the weights changes
  nothing; a cast to the same shape is the identity; and each of its three matrix products into a zero accumulator,
  plus its bias row, is the library's plain sum over the inner index.
-/
import proofs.«131893_g2000001118044285_pallasbulk_215_2_alg».proof.Proof.Gen.KernelIdeal.Skeleton
import proofs.«131893_g2000001118044285_pallasbulk_215_2_alg».proof.Proof.Mlp
import Idealize.ShloMosaic.Lib.Pipeline.Value

noncomputable section

namespace Cert.KernelIdeal.Payload

open Idealize.ShloMosaic Idealize.ShloMosaic.ValueIdx Cert.KernelIdeal Cert.KernelIdeal.Gen Cert.PlainDot

/-- Each printed contraction is the plain rows-by-columns one. -/
theorem dot1_eq : dot_S2048x128_S128x512_S2048x512_1_0_0_1_n_n = DotDims.plain 2048 128 512 := rfl
theorem dot2_eq : dot_S2048x512_S512x384_S2048x384_1_0_0_1_n_n = DotDims.plain 2048 512 384 := rfl
theorem dot3_eq : dot_S2048x384_S384x128_S2048x128_1_0_0_1_n_n = DotDims.plain 2048 384 128 := rfl

/-- The stored value, as a function of the loaded blocks: the perceptron on 2048 rows. -/
theorem pay_eq (v0 : Vec Ideal S2048x128 .f32) (v2 : Vec Ideal S128x512 .bf16) (v5 : Vec Ideal S1x512 .f32)
    (v11 : Vec Ideal S512x384 .bf16) (v14 : Vec Ideal S1x384 .f32) (v20 : Vec Ideal S384x128 .bf16) (v23 : Vec Ideal S1x128 .f32) :
    k0_pay1 (F := Ideal) v0 v2 v5 v11 v14 v20 v23 = Cert.Mlp.net (R := 2048) v0 v2 v5 v11 v14 v20 v23 := by
  unfold k0_pay1
  simp only [shapeCast_self, dot1_eq, dot2_eq, dot3_eq, truncf, Ideal.truncf_def]
  rw [matmul_add_row_max_eq, matmul_add_row_max_eq, matmul_add_row_eq]
  rfl

end Cert.KernelIdeal.Payload

end
-- ==== Proof.KernelValue.lean ====
/-
  What the kernel's program leaves in its result, at the extended reals.

  The region runs at 32 points; point t reads rows 2048 t .. 2048 t + 2047 of the input and the whole of each weight and
  bias array, and writes the same rows of a 65536 x 128 array. The weights it reads were narrowed on the host first,
  which changes nothing here. Its stored value is the perceptron of its blocks (the payload module), and by row locality
  that is the same rows of the perceptron G of the whole arrays. The 32 blocks of rows tile the array, so the region
  leaves G; the host then keeps columns 0 .. 23.
-/
import proofs.«131893_g2000001118044285_pallasbulk_215_2_alg».proof.Proof.Gen.KernelIdeal.Frame
import proofs.«131893_g2000001118044285_pallasbulk_215_2_alg».proof.Proof.KernelPayload
import Idealize.ShloMosaic.Lib.Pipeline.Value
import Idealize.ShloMosaic.Lib.StableHlo.Run

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The perceptron of the argument arrays on all 65536 rows. -/
abbrev G (c : Dev nD) : S65536x128.Idx → EReal :=
  Cert.Mlp.net (R := 65536) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-! ## The arrays as the region finds them -/

/-- The first weight array, narrowed on the host: the argument itself. -/
theorem V_w1 (c : Dev nD) : (V m c main_v0 : S128x512.Idx → EReal) = m ((c : Thread nD τ).loc main_arg1) := by
  show StableHlo.after hostOps0 (fun b => m (c, b)) (Proc.devRef .tc main_v0) = _
  after_results
  rfl
/-- The second. -/
theorem V_w2 (c : Dev nD) : (V m c main_v1 : S512x384.Idx → EReal) = m ((c : Thread nD τ).loc main_arg3) := by
  show StableHlo.after hostOps0 (fun b => m (c, b)) (Proc.devRef .tc main_v1) = _
  after_results
  rfl
/-- The third. -/
theorem V_w3 (c : Dev nD) : (V m c main_v2 : S384x128.Idx → EReal) = m ((c : Thread nD τ).loc main_arg5) := by
  show StableHlo.after hostOps0 (fun b => m (c, b)) (Proc.devRef .tc main_v2) = _
  after_results
  rfl

/-! ## The blocks -/

theorem hz : (![0, 0] : Fin 2 → Nat) = fun _ => 0 := funext fun a => by fin_cases a <;> rfl

/-- The printed index maps over the grid: the input's and the output's block index is (t, 0), every other window's (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 1's block at any point is the whole first weight array. -/
theorem blk1 (c : Dev nD) (t : Fin cfg0.N) : (iblk m c 1 t : S128x512.Idx → EReal) = m ((c : Thread nD τ).loc main_arg1) := by
  funext y
  show V m c main_v0 (((cfg0.win 1).blk t).view.emb y) = _
  rw [V_w1]
  refine congrArg _ (funext fun a => Fin.ext ?_)
  obtain ⟨-, -, e0, e1, -⟩ := idx_facts t
  match a with
  | ⟨0, _⟩ => show win0_1.index t (0 : Fin 2) * 128 + 1 * (y 0).val = (y 0).val; omega
  | ⟨1, _⟩ => show win0_1.index t (1 : Fin 2) * 512 + 1 * (y 1).val = (y 1).val; omega
/-- Window 2's is the whole first bias row. -/
theorem blk2 (c : Dev nD) (t : Fin cfg0.N) : (iblk m c 2 t : S1x512.Idx → EReal) = m ((c : Thread nD τ).loc main_arg2) := by
  funext y
  show V m c main_arg2 (((cfg0.win 2).blk t).view.emb y) = _
  rw [V_main_arg2]
  refine congrArg _ (funext fun a => Fin.ext ?_)
  obtain ⟨-, -, -, -, e0, e1, -⟩ := idx_facts t
  match a with
  | ⟨0, _⟩ => show win0_2.index t (0 : Fin 2) * 1 + 1 * (y 0).val = (y 0).val; omega
  | ⟨1, _⟩ => show win0_2.index t (1 : Fin 2) * 512 + 1 * (y 1).val = (y 1).val; omega
/-- Window 3's is the whole second weight array. -/
theorem blk3 (c : Dev nD) (t : Fin cfg0.N) : (iblk m c 3 t : S512x384.Idx → EReal) = m ((c : Thread nD τ).loc main_arg3) := by
  funext y
  show V m c main_v1 (((cfg0.win 3).blk t).view.emb y) = _
  rw [V_w2]
  refine congrArg _ (funext fun a => Fin.ext ?_)
  obtain ⟨-, -, -, -, -, -, e0, e1, -⟩ := idx_facts t
  match a with
  | ⟨0, _⟩ => show win0_3.index t (0 : Fin 2) * 512 + 1 * (y 0).val = (y 0).val; omega
  | ⟨1, _⟩ => show win0_3.index t (1 : Fin 2) * 384 + 1 * (y 1).val = (y 1).val; omega
/-- Window 4's is the whole second bias row. -/
theorem blk4 (c : Dev nD) (t : Fin cfg0.N) : (iblk m c 4 t : S1x384.Idx → EReal) = m ((c : Thread nD τ).loc main_arg4) := by
  funext y
  show V m c main_arg4 (((cfg0.win 4).blk t).view.emb y) = _
  rw [V_main_arg4]
  refine congrArg _ (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 384 + 1 * (y 1).val = (y 1).val; omega
/-- Window 5's is the whole third weight array. -/
theorem blk5 (c : Dev nD) (t : Fin cfg0.N) : (iblk m c 5 t : S384x128.Idx → EReal) = m ((c : Thread nD τ).loc main_arg5) := by
  funext y
  show V m c main_v2 (((cfg0.win 5).blk t).view.emb y) = _
  rw [V_w3]
  refine congrArg _ (funext fun a => Fin.ext ?_)
  obtain ⟨-, -, -, -, -, -, -, -, -, -, e0, e1, -⟩ := idx_facts t
  match a with
  | ⟨0, _⟩ => show win0_5.index t (0 : Fin 2) * 384 + 1 * (y 0).val = (y 0).val; omega
  | ⟨1, _⟩ => show win0_5.index t (1 : Fin 2) * 128 + 1 * (y 1).val = (y 1).val; omega
/-- Window 6's is the whole third bias row. -/
theorem blk6 (c : Dev nD) (t : Fin cfg0.N) : (iblk m c 6 t : S1x128.Idx → EReal) = m ((c : Thread nD τ).loc main_arg6) := by
  funext y
  show V m c main_arg6 (((cfg0.win 6).blk t).view.emb y) = _
  rw [V_main_arg6]
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- WHAT POINT t WRITES BACK is block t of G: rows 2048 t .. 2048 t + 2047 of the perceptron of the whole arrays. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz]
  simp only [View.ld_unit_zero (S := S2048x128) hz, View.ld_unit_zero (S := S128x512) hz, View.ld_unit_zero (S := S1x512) hz,
    View.ld_unit_zero (S := S512x384) hz, View.ld_unit_zero (S := S1x384) hz, View.ld_unit_zero (S := S384x128) hz,
    View.ld_unit_zero (S := S1x128) hz]
  rw [Cert.KernelIdeal.Payload.pay_eq]
  funext j
  show Cert.Mlp.net (R := 2048) (iblk m c 0 t) (iblk m c 1 t) (iblk m c 2 t) (iblk m c 3 t) (iblk m c 4 t) (iblk m c 5 t) (iblk m c 6 t) j
      = G m c (((cfg0.win 7).blk t).view.emb j)
  rw [blk1 m c t, blk2 m c t, blk3 m c t, blk4 m c t, blk5 m c t, blk6 m c t]
  obtain ⟨i00, i01, -, -, -, -, -, -, -, -, -, -, -, -, i70, i71⟩ := idx_facts t
  refine Cert.Mlp.net_block _ _ _ _ _ _ _ _ j _ ?_ ?_
  · show win0_7.index t (1 : Fin 2) * 128 + 1 * (j 1).val = (j 1).val
    omega
  · intro k
    show V m c main_arg0 (((cfg0.win 0).blk t).view.emb (ix2 (j 0) k)) = _
    rw [V_main_arg0]
    refine congrArg _ (funext fun a => Fin.ext ?_)
    match a with
    | ⟨0, _⟩ => show win0_0.index t (0 : Fin 2) * 2048 + 1 * (j 0).val = win0_7.index t (0 : Fin 2) * 2048 + 1 * (j 0).val; omega
    | ⟨1, _⟩ => show win0_0.index t (1 : Fin 2) * 128 + 1 * k.val = k.val; omega

/-! ## From the blocks to the array -/

/-- An index of the array is in point t's block iff each coordinate is in the block's range on its axis. -/
theorem mem_blk (t : Fin cfg0.N) (i : S65536x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v3).slice (win0_7.rect t)).set ↔ _
  rw [View.set_slice_whole, Rect.mem_set_unit]
  exact Iff.rfl

/-- Every row r is in the block of point r / 2048. -/
theorem cover (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  have hN : cfg0.N = 32 := N_0
  let t : Fin cfg0.N := ⟨(i 0).val / 2048, by rw [hN]; omega⟩
  obtain ⟨-, -, -, -, -, -, -, -, -, -, -, -, -, -, i70, i71⟩ := idx_facts t
  have ht : t.val = (i 0).val / 2048 := rfl
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- THE ARRAY the region leaves: the perceptron of the whole arrays. -/
theorem final (c : Dev nD) : (dats m 0 c).arrAt 7 cfg0.N = G m c :=
  (dats m 0 c).arrAt_eq_of_cover 7 (G m c) (fun t _ => flushed_eq m c t) (cover)

/-! ## The host's last line, and the run -/

/-- The result buffer after the host's slice: columns 0 .. 23 of G. -/
theorem tail_eq (c : Dev nD) :
    Pipeline.afterTail₀ cfgs (dats m) 0 (V0 m) [hostOps1] c main_v4
      = extractStridedSlice S65536x24 ![0, 0] (G m c) slices_S65536x128_S65536x24_0_0 := by
  unfold Pipeline.afterTail₀
  show StableHlo.after hostOps1 _ (Proc.devRef .tc main_v4) = _
  after_results
  exact congrArg (fun v => extractStridedSlice S65536x24 ![0, 0] v slices_S65536x128_S65536x24_0_0)
    ((Pipeline.withArrays_arr spec0 launch0.win.arr_inj c (V0 m c) (fun w => (dats m 0 c).arrAt w cfg0.N) 7).trans (final m c))

/-- Every weakly fair execution of the program ends with the result at columns 0 .. 23 of G and the arguments unchanged. -/
theorem run : θ_run defs (onTc (τ := τ) (main (F := Ideal))) ⟨m, fun _ => 0, ρ⟩ fun r => ∀ c : Dev nD,
      r.2.mem ((c : Thread nD τ).loc main_v4) = extractStridedSlice S65536x24 ![0, 0] (G m c) slices_S65536x128_S65536x24_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.RegionValue

end
-- ==== Proof.ReferencePayload.lean ====
/-
  The reference body's one stored value is the perceptron of its loaded blocks: a cast to the same shape is the
  identity, and each of its three matrix products into a zero accumulator, plus its bias row, is the library's plain
  sum over the inner index.
-/
import proofs.«131893_g2000001118044285_pallasbulk_215_2_alg».proof.Proof.Gen.ReferenceIdeal.Skeleton
import proofs.«131893_g2000001118044285_pallasbulk_215_2_alg».proof.Proof.Mlp
import Idealize.ShloMosaic.Lib.Pipeline.Value

noncomputable section

namespace Cert.ReferenceIdeal.Payload

open Idealize.ShloMosaic Idealize.ShloMosaic.ValueIdx Cert.ReferenceIdeal Cert.ReferenceIdeal.Gen Cert.PlainDot

/-- Each printed contraction is the plain rows-by-columns one. -/
theorem dot1_eq : dot_S256x128_S128x512_S256x512_1_0_0_1_n_n = DotDims.plain 256 128 512 := rfl
theorem dot2_eq : dot_S256x512_S512x384_S256x384_1_0_0_1_n_n = DotDims.plain 256 512 384 := rfl
theorem dot3_eq : dot_S256x384_S384x128_S256x128_1_0_0_1_n_n = DotDims.plain 256 384 128 := rfl

/-- The stored value, as a function of the loaded blocks: the perceptron on 256 rows. -/
theorem pay_eq (v0 : Vec Ideal S256x128 .f32) (v2 : Vec Ideal S128x512 .f32) (v4 : Vec Ideal S1x512 .f32)
    (v9 : Vec Ideal S512x384 .f32) (v11 : Vec Ideal S1x384 .f32) (v16 : Vec Ideal S384x128 .f32) (v18 : Vec Ideal S1x128 .f32) :
    k0_pay1 (F := Ideal) v0 v2 v4 v9 v11 v16 v18 = Cert.Mlp.net (R := 256) v0 v2 v4 v9 v11 v16 v18 := by
  unfold k0_pay1
  simp only [shapeCast_self, dot1_eq, dot2_eq, dot3_eq]
  rw [matmul_add_row_max_eq, matmul_add_row_max_eq, matmul_add_row_eq]
  rfl

end Cert.ReferenceIdeal.Payload

end
-- ==== Proof.ReferenceValue.lean ====
/-
  What the reference's program leaves in its result, at the extended reals.

  The host first pads the input by nothing on every side, which leaves it as it is. The region runs at 256 points; point
  t reads rows 256 t .. 256 t + 255 of that array and the whole of each weight and bias array, and writes the same rows
  of a 65536 x 128 array. Its stored value is the perceptron of its blocks (the payload module), and by row locality that
  is the same rows of the perceptron G of the whole arrays. The 256 blocks of rows tile the array, so the region leaves G;
  the host then keeps columns 0 .. 23.
-/
import proofs.«131893_g2000001118044285_pallasbulk_215_2_alg».proof.Proof.Gen.ReferenceIdeal.Frame
import proofs.«131893_g2000001118044285_pallasbulk_215_2_alg».proof.Proof.ReferencePayload
import Idealize.ShloMosaic.Lib.Pipeline.Value
import Idealize.ShloMosaic.Lib.StableHlo.Run
import Idealize.ShloMosaic.Lib.KernelVsHost

set_option maxRecDepth 16384

noncomputable section

namespace Cert.ReferenceIdeal.RegionValue

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen

variable (m : (ℓ : Loc nD τ sig) → Buf (Elt Ideal) ℓ) (ρ : Dev nD → PrngReg)

/-- The perceptron of the argument arrays on all 65536 rows. -/
abbrev G (c : Dev nD) : S65536x128.Idx → EReal :=
  Cert.Mlp.net (R := 65536) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-! ## The arrays as the region finds them -/

/-- The input after the host's padding by zero rows and zero columns on every side: the argument itself. -/
theorem V_x (c : Dev nD) : (V m c main_call0_v0 : S65536x128.Idx → EReal) = m ((c : Thread nD τ).loc main_arg0) := by
  show StableHlo.after hostOps0 (fun b => m (c, b)) (Proc.devRef .tc main_call0_v0) = _
  after_results
  show pad S65536x128 ![0, 0] ![0, 0] ![0, 0] (m ((c : Thread nD τ).loc main_arg0)) (u := S_) _
      pads_S65536x128_S65536x128_000_000 h_S_ = m ((c : Thread nD τ).loc main_arg0)
  funext j
  refine pad_apply_of_inside (![0, 0]) (![0, 0]) (![0, 0]) (m ((c : Thread nD τ).loc main_arg0)) _
    pads_S65536x128_S65536x128_000_000 h_S_ j j (fun a => ?_)
  match a with
  | ⟨0, _⟩ => show (j 0).val = 0 + (j 0).val * (0 + 1); omega
  | ⟨1, _⟩ => show (j 1).val = 0 + (j 1).val * (0 + 1); omega

/-! ## The blocks -/

theorem hz : (![0, 0] : Fin 2 → Nat) = fun _ => 0 := funext fun a => by fin_cases a <;> rfl

/-- The printed index maps over the grid: the input's and the output's block index is (t, 0), every other window's (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 1's block at any point is the whole first weight array. -/
theorem blk1 (c : Dev nD) (t : Fin cfg0.N) : (iblk m c 1 t : S128x512.Idx → EReal) = m ((c : Thread nD τ).loc main_arg1) := by
  funext y
  show V m c main_arg1 (((cfg0.win 1).blk t).view.emb y) = _
  rw [V_main_arg1]
  refine congrArg _ (funext fun a => Fin.ext ?_)
  obtain ⟨-, -, e0, e1, -⟩ := idx_facts t
  match a with
  | ⟨0, _⟩ => show win0_1.index t (0 : Fin 2) * 128 + 1 * (y 0).val = (y 0).val; omega
  | ⟨1, _⟩ => show win0_1.index t (1 : Fin 2) * 512 + 1 * (y 1).val = (y 1).val; omega
/-- Window 2's is the whole first bias row. -/
theorem blk2 (c : Dev nD) (t : Fin cfg0.N) : (iblk m c 2 t : S1x512.Idx → EReal) = m ((c : Thread nD τ).loc main_arg2) := by
  funext y
  show V m c main_arg2 (((cfg0.win 2).blk t).view.emb y) = _
  rw [V_main_arg2]
  refine congrArg _ (funext fun a => Fin.ext ?_)
  obtain ⟨-, -, -, -, e0, e1, -⟩ := idx_facts t
  match a with
  | ⟨0, _⟩ => show win0_2.index t (0 : Fin 2) * 1 + 1 * (y 0).val = (y 0).val; omega
  | ⟨1, _⟩ => show win0_2.index t (1 : Fin 2) * 512 + 1 * (y 1).val = (y 1).val; omega
/-- Window 3's is the whole second weight array. -/
theorem blk3 (c : Dev nD) (t : Fin cfg0.N) : (iblk m c 3 t : S512x384.Idx → EReal) = m ((c : Thread nD τ).loc main_arg3) := by
  funext y
  show V m c main_arg3 (((cfg0.win 3).blk t).view.emb y) = _
  rw [V_main_arg3]
  refine congrArg _ (funext fun a => Fin.ext ?_)
  obtain ⟨-, -, -, -, -, -, e0, e1, -⟩ := idx_facts t
  match a with
  | ⟨0, _⟩ => show win0_3.index t (0 : Fin 2) * 512 + 1 * (y 0).val = (y 0).val; omega
  | ⟨1, _⟩ => show win0_3.index t (1 : Fin 2) * 384 + 1 * (y 1).val = (y 1).val; omega
/-- Window 4's is the whole second bias row. -/
theorem blk4 (c : Dev nD) (t : Fin cfg0.N) : (iblk m c 4 t : S1x384.Idx → EReal) = m ((c : Thread nD τ).loc main_arg4) := by
  funext y
  show V m c main_arg4 (((cfg0.win 4).blk t).view.emb y) = _
  rw [V_main_arg4]
  refine congrArg _ (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 384 + 1 * (y 1).val = (y 1).val; omega
/-- Window 5's is the whole third weight array. -/
theorem blk5 (c : Dev nD) (t : Fin cfg0.N) : (iblk m c 5 t : S384x128.Idx → EReal) = m ((c : Thread nD τ).loc main_arg5) := by
  funext y
  show V m c main_arg5 (((cfg0.win 5).blk t).view.emb y) = _
  rw [V_main_arg5]
  refine congrArg _ (funext fun a => Fin.ext ?_)
  obtain ⟨-, -, -, -, -, -, -, -, -, -, e0, e1, -⟩ := idx_facts t
  match a with
  | ⟨0, _⟩ => show win0_5.index t (0 : Fin 2) * 384 + 1 * (y 0).val = (y 0).val; omega
  | ⟨1, _⟩ => show win0_5.index t (1 : Fin 2) * 128 + 1 * (y 1).val = (y 1).val; omega
/-- Window 6's is the whole third bias row. -/
theorem blk6 (c : Dev nD) (t : Fin cfg0.N) : (iblk m c 6 t : S1x128.Idx → EReal) = m ((c : Thread nD τ).loc main_arg6) := by
  funext y
  show V m c main_arg6 (((cfg0.win 6).blk t).view.emb y) = _
  rw [V_main_arg6]
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- WHAT POINT t WRITES BACK is block t of G: rows 256 t .. 256 t + 255 of the perceptron of the whole arrays. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz]
  simp only [View.ld_unit_zero (S := S256x128) hz, View.ld_unit_zero (S := S128x512) hz, View.ld_unit_zero (S := S1x512) hz,
    View.ld_unit_zero (S := S512x384) hz, View.ld_unit_zero (S := S1x384) hz, View.ld_unit_zero (S := S384x128) hz,
    View.ld_unit_zero (S := S1x128) hz]
  rw [Cert.ReferenceIdeal.Payload.pay_eq]
  funext j
  show Cert.Mlp.net (R := 256) (iblk m c 0 t) (iblk m c 1 t) (iblk m c 2 t) (iblk m c 3 t) (iblk m c 4 t) (iblk m c 5 t) (iblk m c 6 t) j
      = G m c (((cfg0.win 7).blk t).view.emb j)
  rw [blk1 m c t, blk2 m c t, blk3 m c t, blk4 m c t, blk5 m c t, blk6 m c t]
  obtain ⟨i00, i01, -, -, -, -, -, -, -, -, -, -, -, -, i70, i71⟩ := idx_facts t
  refine Cert.Mlp.net_block _ _ _ _ _ _ _ _ j _ ?_ ?_
  · show win0_7.index t (1 : Fin 2) * 128 + 1 * (j 1).val = (j 1).val
    omega
  · intro k
    show V m c main_call0_v0 (((cfg0.win 0).blk t).view.emb (ix2 (j 0) k)) = _
    rw [V_x]
    refine congrArg _ (funext fun a => Fin.ext ?_)
    match a with
    | ⟨0, _⟩ => show win0_0.index t (0 : Fin 2) * 256 + 1 * (j 0).val = win0_7.index t (0 : Fin 2) * 256 + 1 * (j 0).val; omega
    | ⟨1, _⟩ => show win0_0.index t (1 : Fin 2) * 128 + 1 * k.val = k.val; omega

/-! ## From the blocks to the array -/

/-- An index of the array is in point t's block iff each coordinate is in the block's range on its axis. -/
theorem mem_blk (t : Fin cfg0.N) (i : S65536x128.Idx) :
    i ∈ ((cfg0.win 7).blk t).view.set ↔ ∀ a : Fin 2, win0_7.index t a * S256x128.size a ≤ (i a).val ∧ (i a).val < win0_7.index t a * S256x128.size a + S256x128.size a := by
  show i ∈ ((View.whole main_call0_v1).slice (win0_7.rect t)).set ↔ _
  rw [View.set_slice_whole, Rect.mem_set_unit]
  exact Iff.rfl

/-- Every row r is in the block of point r / 256. -/
theorem cover (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  have hN : cfg0.N = 256 := N_0
  let t : Fin cfg0.N := ⟨(i 0).val / 256, by rw [hN]; omega⟩
  obtain ⟨-, -, -, -, -, -, -, -, -, -, -, -, -, -, i70, i71⟩ := idx_facts t
  have ht : t.val = (i 0).val / 256 := rfl
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 128 ≤ (i 1).val ∧ (i 1).val < win0_7.index t (1 : Fin 2) * 128 + 128; omega

/-- THE ARRAY the region leaves: the perceptron of the whole arrays. -/
theorem final (c : Dev nD) : (dats m 0 c).arrAt 7 cfg0.N = G m c :=
  (dats m 0 c).arrAt_eq_of_cover 7 (G m c) (fun t _ => flushed_eq m c t) (cover)

/-! ## The host's last line, and the run -/

/-- The result buffer after the host's slice: columns 0 .. 23 of G. -/
theorem tail_eq (c : Dev nD) :
    Pipeline.afterTail₀ cfgs (dats m) 0 (V0 m) [hostOps1] c main_v0
      = extractStridedSlice S65536x24 ![0, 0] (G m c) slices_S65536x128_S65536x24_0_0 := by
  unfold Pipeline.afterTail₀
  show StableHlo.after hostOps1 _ (Proc.devRef .tc main_v0) = _
  after_results
  exact congrArg (fun v => extractStridedSlice S65536x24 ![0, 0] v slices_S65536x128_S65536x24_0_0)
    ((Pipeline.withArrays_arr spec0 launch0.win.arr_inj c (V0 m c) (fun w => (dats m 0 c).arrAt w cfg0.N) 7).trans (final m c))

/-- Every weakly fair execution of the program ends with the result at columns 0 .. 23 of G and the arguments unchanged. -/
theorem run : θ_run defs (onTc (τ := τ) (main (F := Ideal))) ⟨m, fun _ => 0, ρ⟩ fun r => ∀ c : Dev nD,
      r.2.mem ((c : Thread nD τ).loc main_v0) = extractStridedSlice S65536x24 ![0, 0] (G m c) slices_S65536x128_S65536x24_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.ReferenceIdeal.RegionValue

end
-- ==== Proof.lean ====
/-
  The kernel and its reference are the same three-layer perceptron

      tanh (relu (relu (x · w1 + b1) · w2 + b2) · w3 + b3),   columns 0 .. 23 of the result kept,

  computed in blocks of rows: the kernel in 32 blocks of 2048 rows, the reference in 256 blocks of 256 rows. The kernel
  narrows its input block, its hidden layers and (on the host) its weights to a shorter float format before each matrix
  product; at the extended reals a change of format is the identity, so nothing of that is left. Each row of the result
  is a function of the same row of x and of the weights and biases alone, so each program leaves, whatever its block
  height, the perceptron G of the whole arrays (one module per program), and the two results are the same slice of the
  same array once the arguments agree. No algebraic law is used: both sides sum the same products in the same order,
  so the inputs' finiteness is never opened. The ideal pass rewrote nothing, so the idealization claim is trivial; the
  three frames are the generated ones.
-/
import proofs.«131893_g2000001118044285_pallasbulk_215_2_alg».proof.Defs
import proofs.«131893_g2000001118044285_pallasbulk_215_2_alg».proof.Proof.Gen.Kernel
import proofs.«131893_g2000001118044285_pallasbulk_215_2_alg».proof.Proof.Gen.Kernel.Frame
import proofs.«131893_g2000001118044285_pallasbulk_215_2_alg».proof.Proof.Gen.KernelIdeal.Frame
import proofs.«131893_g2000001118044285_pallasbulk_215_2_alg».proof.Proof.Gen.ReferenceIdeal.Frame
import proofs.«131893_g2000001118044285_pallasbulk_215_2_alg».proof.Proof.Gen.Pre_finite_inputs
import proofs.«131893_g2000001118044285_pallasbulk_215_2_alg».proof.Proof.KernelValue
import proofs.«131893_g2000001118044285_pallasbulk_215_2_alg».proof.Proof.ReferenceValue

noncomputable section

namespace Cert.Proof

open Idealize.ShloMosaic Idealize.ShloMosaic.TcCoe Idealize.SL.Sem

/-- On memories that agree on the seven arguments the two programs' perceptrons of the whole arrays are one array. -/
theorem G_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.RegionValue.G m' c = Cert.KernelIdeal.RegionValue.G m c := by
  unfold Cert.ReferenceIdeal.RegionValue.G Cert.KernelIdeal.RegionValue.G
  rw [h0, h1, h2, h3, h4, h5, h6]

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- Both programs end at columns 0 .. 23 of the perceptron of their arguments, and the arguments agree. -/
theorem algebraic : Cert.algebraic_KernelIdeal_ReferenceIdeal := by
  intro m ρ m' ρ' _ hagree
  refine ⟨_, Cert.KernelIdeal.RegionValue.run m ρ, ?_⟩
  refine (θ_run Cert.ReferenceIdeal.defs _ _).mono (fun r h c => ⟨(h c).1.trans ?_, (h c).2⟩)
    (Cert.ReferenceIdeal.RegionValue.run m' ρ')
  obtain ⟨h0, h1, h2, h3, h4, h5, h6⟩ := hagree c
  rw [G_agree m m' c h0 h1 h2 h3 h4 h5 h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
